-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x1600000 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S5000x128 : Shape := ⟨2, ![5000, 128]⟩
abbrev S1x128 : Shape := ⟨2, ![1, 128]⟩

abbrev nBuf : Space → Nat
  | .hbm => 61
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S50000, .i32⟩
  | .hbm, ⟨9, _⟩ => ⟨S1650000, .i32⟩
  | .hbm, ⟨10, _⟩ => ⟨S1650000, .i32⟩
  | .hbm, ⟨11, _⟩ => ⟨S_, .f32⟩
  | .hbm, ⟨12, _⟩ => ⟨S1650000, .f32⟩
  | .hbm, ⟨13, _⟩ => ⟨S_, .f32⟩
  | .hbm, ⟨14, _⟩ => ⟨S50000, .f32⟩
  | .hbm, ⟨15, _⟩ => ⟨S1650000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S1650000, .i32⟩
  | .hbm, ⟨26, _⟩ => ⟨S1650000, .i1⟩
  | .hbm, ⟨27, _⟩ => ⟨S_, .i32⟩
  | .hbm, ⟨28, _⟩ => ⟨S1650000, .i32⟩
  | .hbm, ⟨29, _⟩ => ⟨S1650000, .i32⟩
  | .hbm, ⟨30, _⟩ => ⟨S1650000, .i32⟩
  | .hbm, ⟨31, _⟩ => ⟨S1650000x1, .i32⟩
  | .hbm, ⟨32, _⟩ => ⟨S1650000, .f32⟩
  | .hbm, ⟨33, _⟩ => ⟨S_, .i32⟩
  | .hbm, ⟨34, _⟩ => ⟨S1650000, .i32⟩
  | .hbm, ⟨35, _⟩ => ⟨S1650000, .i1⟩
  | .hbm, ⟨36, _⟩ => ⟨S_, .i32⟩
  | .hbm, ⟨37, _⟩ => ⟨S1650000, .i32⟩
  | .hbm, ⟨38, _⟩ => ⟨S1650000, .i32⟩
  | .hbm, ⟨39, _⟩ => ⟨S1650000, .i32⟩
  | .hbm, ⟨40, _⟩ => ⟨S1650000x1, .i32⟩
  | .hbm, ⟨41, _⟩ => ⟨S1650000, .f32⟩
  | .hbm, ⟨42, _⟩ => ⟨S1650000, .f32⟩
  | .hbm, ⟨43, _⟩ => ⟨S_, .i32⟩
  | .hbm, ⟨44, _⟩ => ⟨S1650000, .i32⟩
  | .hbm, ⟨45, _⟩ => ⟨S1650000, .i1⟩
  | .hbm, ⟨46, _⟩ => ⟨S_, .i32⟩
  | .hbm, ⟨47, _⟩ => ⟨S1650000, .i32⟩
  | .hbm, ⟨48, _⟩ => ⟨S1650000, .i32⟩
  | .hbm, ⟨49, _⟩ => ⟨S1650000, .i32⟩
  | .hbm, ⟨50, _⟩ => ⟨S1650000x1, .i32⟩
  | .hbm, ⟨51, _⟩ => ⟨S1650000x128, .f32⟩
  | .hbm, ⟨52, _⟩ => ⟨S1650000x1, .f32⟩
  | .hbm, ⟨53, _⟩ => ⟨S1650000x128, .f32⟩
  | .hbm, ⟨54, _⟩ => ⟨S1650000x128, .f32⟩
  | .hbm, ⟨55, _⟩ => ⟨S_, .f32⟩
  | .hbm, ⟨56, _⟩ => ⟨S50000x128, .f32⟩
  | .hbm, ⟨57, _⟩ => ⟨S1650000x1, .i32⟩
  | .hbm, ⟨58, _⟩ => ⟨S50000x128, .f32⟩
  | .hbm, ⟨59, _⟩ => ⟨S128x128, .f32⟩
  | .hbm, ⟨60, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v43) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩

abbrev nBuf : Space → Nat
  | .hbm => 68
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S50000, .i32⟩
  | .hbm, ⟨9, _⟩ => ⟨S1650000, .i32⟩
  | .hbm, ⟨10, _⟩ => ⟨S1650000, .i32⟩
  | .hbm, ⟨11, _⟩ => ⟨S_, .f32⟩
  | .hbm, ⟨12, _⟩ => ⟨S1650000, .f32⟩
  | .hbm, ⟨13, _⟩ => ⟨S_, .f32⟩
  | .hbm, ⟨14, _⟩ => ⟨S50000, .f32⟩
  | .hbm, ⟨15, _⟩ => ⟨S1650000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S1650000, .i32⟩
  | .hbm, ⟨26, _⟩ => ⟨S1650000, .i1⟩
  | .hbm, ⟨27, _⟩ => ⟨S_, .i32⟩
  | .hbm, ⟨28, _⟩ => ⟨S1650000, .i32⟩
  | .hbm, ⟨29, _⟩ => ⟨S1650000, .i32⟩
  | .hbm, ⟨30, _⟩ => ⟨S1650000, .i32⟩
  | .hbm, ⟨31, _⟩ => ⟨S1650000x1, .i32⟩
  | .hbm, ⟨32, _⟩ => ⟨S1650000, .f32⟩
  | .hbm, ⟨33, _⟩ => ⟨S_, .i32⟩
  | .hbm, ⟨34, _⟩ => ⟨S1650000, .i32⟩
  | .hbm, ⟨35, _⟩ => ⟨S1650000, .i1⟩
  | .hbm, ⟨36, _⟩ => ⟨S_, .i32⟩
  | .hbm, ⟨37, _⟩ => ⟨S1650000, .i32⟩
  | .hbm, ⟨38, _⟩ => ⟨S1650000, .i32⟩
  | .hbm, ⟨39, _⟩ => ⟨S1650000, .i32⟩
  | .hbm, ⟨40, _⟩ => ⟨S1650000x1, .i32⟩
  | .hbm, ⟨41, _⟩ => ⟨S1650000, .f32⟩
  | .hbm, ⟨42, _⟩ => ⟨S1650000, .f32⟩
  | .hbm, ⟨43, _⟩ => ⟨S_, .i32⟩
  | .hbm, ⟨44, _⟩ => ⟨S1650000, .i32⟩
  | .hbm, ⟨45, _⟩ => ⟨S1650000, .i1⟩
  | .hbm, ⟨46, _⟩ => ⟨S_, .i32⟩
  | .hbm, ⟨47, _⟩ => ⟨S1650000, .i32⟩
  | .hbm, ⟨48, _⟩ => ⟨S1650000, .i32⟩
  | .hbm, ⟨49, _⟩ => ⟨S1650000, .i32⟩
  | .hbm, ⟨50, _⟩ => ⟨S1650000x1, .i32⟩
  | .hbm, ⟨51, _⟩ => ⟨S1650000x128, .f32⟩
  | .hbm, ⟨52, _⟩ => ⟨S1650000x1, .f32⟩
  | .hbm, ⟨53, _⟩ => ⟨S1650000x128, .f32⟩
  | .hbm, ⟨54, _⟩ => ⟨S1650000x128, .f32⟩
  | .hbm, ⟨55, _⟩ => ⟨S_, .f32⟩
  | .hbm, ⟨56, _⟩ => ⟨S50000x128, .f32⟩
  | .hbm, ⟨57, _⟩ => ⟨S1650000x1, .i32⟩
  | .hbm, ⟨58, _⟩ => ⟨S50000x128, .f32⟩
  | .hbm, ⟨59, _⟩ => ⟨S128x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_call1_cst : Ref sig .tc := ⟨.hbm, 64, rfl⟩
abbrev main_call1_v0 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x128_S50000x128_1_0_0_1_n_n_wf : DotDims.WF S50000x128 S128x128 S50000x128 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Epilogue.lean ====
/-
  The dense epilogue of a simplified graph convolution, as one function of four arrays.

  With `agg` the aggregated neighbour features (one row per node), `x` the node features, `wt` the transposed weight
  matrix and `b` the bias, entry (p, q) of the layer's output is

      x(p, q) + max( Σ_k agg(p, k) · wt(k, q) + b(q), 0 ),

  a row of `agg` times the weights, the bias added, the rectifier applied, and the node's own features added back.
  Everything is over the extended reals; the zero of the rectifier is kept as the float word it is printed with, the
  same word on both sides of the comparison, so it is never evaluated.  The number of rows is a parameter: a block of
  rows of the output is the same function of the same block of rows of `agg` and `x`.
-/
import Idealize.ShloMosaic.Lib.ValueIdx
import Idealize.ShloMosaic.PureOps.Ideal

noncomputable section

open scoped BigOperators

namespace SGConv

open Idealize.ShloMosaic Idealize.ShloMosaic.ValueIdx

variable {n : ℕ}

/-- Entry (p, q) of the layer's output: the node's features plus the rectified affine image of its aggregated row. -/
def entry (agg x : (⟨2, ![n, 128]⟩ : Shape).Idx → EReal) (wt : (⟨2, ![128, 128]⟩ : Shape).Idx → EReal)
    (b : (⟨1, ![128]⟩ : Shape).Idx → EReal) (p : Fin n) (q : Fin 128) : EReal :=
  x (ix2 p q) + max ((∑ k : Fin 128, agg (ix2 p k) * wt (ix2 k q)) + b (ix1 q)) (Ideal.ofBits .f32 0x00000000#32)

/-- The layer's output as an array: `entry` at each index's two coordinates. -/
def dense (agg x : (⟨2, ![n, 128]⟩ : Shape).Idx → EReal) (wt : (⟨2, ![128, 128]⟩ : Shape).Idx → EReal)
    (b : (⟨1, ![128]⟩ : Shape).Idx → EReal) : (⟨2, ![n, 128]⟩ : Shape).Idx → EReal :=
  fun j => entry agg x wt b (j 0) (j 1)

theorem dense_ix2 (agg x : (⟨2, ![n, 128]⟩ : Shape).Idx → EReal) (wt : (⟨2, ![128, 128]⟩ : Shape).Idx → EReal)
    (b : (⟨1, ![128]⟩ : Shape).Idx → EReal) (p : Fin n) (q : Fin 128) :
    dense agg x wt b (ix2 p q) = entry agg x wt b p q := rfl

/-- An entry depends on `agg` only through the node's row, on `x` only at the entry itself: two pairs of arrays that
    agree there give the same entry. -/
theorem entry_congr {n' : ℕ} (agg x : (⟨2, ![n, 128]⟩ : Shape).Idx → EReal) (agg' x' : (⟨2, ![n', 128]⟩ : Shape).Idx → EReal)
    (wt wt' : (⟨2, ![128, 128]⟩ : Shape).Idx → EReal) (b b' : (⟨1, ![128]⟩ : Shape).Idx → EReal)
    (p : Fin n) (p' : Fin n') (q : Fin 128)
    (hagg : ∀ k : Fin 128, agg (ix2 p k) = agg' (ix2 p' k)) (hx : x (ix2 p q) = x' (ix2 p' q))
    (hwt : ∀ k : Fin 128, wt (ix2 k q) = wt' (ix2 k q)) (hb : b (ix1 q) = b' (ix1 q)) :
    entry agg x wt b p q = entry agg' x' wt' b' p' q := by
  unfold entry
  rw [hx, hb]
  congr 3
  exact Finset.sum_congr rfl fun k _ => by rw [hagg k, hwt k]

end SGConv

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.KernelValue.lean ====
/-
  What the idealized kernel leaves in its result array, as one function of the four arrays its windows stage.

  The kernel runs over ten blocks of 5000 node rows.  At block `t` it loads rows 5000·t … 5000·t + 4999 of the aggregated
  features and of the node features, the whole transposed weight matrix and the whole bias, and stores, at row `p` and
  column `q` of the block,

      x(p, q) + max( Σ_k agg(p, k) · wt(k, q) + b(q), 0 )

  (the two narrowings to bfloat16 before the product are the identity on extended reals, and the matrix product into a
  zero accumulator is the plain sum over the contracted axis).  That is block `t` of `SGConv.dense` of the four whole
  arrays: an entry of a block only reads its own row of `agg`, its own entry of `x`, and all of `wt` and `b`.  The ten
  blocks tile the 50000 rows, so after the run the result array is `SGConv.dense` of the arrays as the region finds them.
-/
import proofs.«121625_j31138512896566_1_alg».proof.Proof.Gen.KernelIdeal.Value
import proofs.«121625_j31138512896566_1_alg».proof.Proof.Epilogue
import proofs.«121625_j31138512896566_1_alg».proof.Proof.LibPlainDot
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Dense

open Cert.KernelIdeal Cert.KernelIdeal.Gen Cert.KernelIdeal.Value

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The kernel's matrix product contracts the block's columns with the weight matrix's rows, nothing batched. -/
theorem plain : PlainDot.IsPlain dot_S5000x128_S128x128_S5000x128_1_0_0_1_n_n := ⟨rfl, rfl, rfl, rfl, rfl, rfl⟩

/-- The stored value at row `p`, column `q` of a block, from the four loaded values: the epilogue's entry. -/
theorem pay_entry (agg : Vec Ideal S5000x128 .f32) (wt : Vec Ideal S128x128 .f32) (b : Vec Ideal S128 .f32)
    (x : Vec Ideal S5000x128 .f32) (p : Fin 5000) (q : Fin 128) :
    k0_pay1 (F := Ideal) agg wt b x (ix2 p q) = SGConv.entry agg x wt b p q := by
  unfold k0_pay1 SGConv.entry
  simp only [shapeCast_self]
  show x (ix2 p q) + max ((matmul (F := Ideal) dot_S5000x128_S128x128_S5000x128_1_0_0_1_n_n none (truncf (F := Ideal) .bf16 agg bitsLt_bf16_f32 : FVec Ideal S5000x128 .bf16) (truncf (F := Ideal) .bf16 wt bitsLt_bf16_f32 : FVec Ideal S128x128 .bf16) (constant (F := Ideal) S5000x128 .f32 0x00000000#32) : FVec Ideal S5000x128 .f32) (ix2 p q)
      + (broadcastTo S5000x128 (shapeCast S1x128 b shapeCasts_S128_S1x128) broadcasts_S1x128_S5000x128 : S5000x128.Idx → EReal) (ix2 p q)) (Ideal.ofBits .f32 0x00000000#32) = _
  rw [PlainDot.matmul_zero_apply plain, broadcastTo_1b_ab_apply, shapeCast_a_1a_apply]
  rfl

/-! ## The arrays the region finds, and the blocks a point loads, at their literal types -/

abbrev aggArr (c : Dev nD) : S50000x128.Idx → EReal := V m c main_v43
abbrev xArr (c : Dev nD) : S50000x128.Idx → EReal := V m c main_arg0
abbrev wtArr (c : Dev nD) : S128x128.Idx → EReal := V m c main_v44
abbrev bArr (c : Dev nD) : S128.Idx → EReal := V m c main_arg3

abbrev aggBlk (c : Dev nD) (t : Fin cfg0.N) : S5000x128.Idx → EReal := iblk m c 0 t
abbrev xBlk (c : Dev nD) (t : Fin cfg0.N) : S5000x128.Idx → EReal := iblk m c 1 t
abbrev wtBlk (c : Dev nD) (t : Fin cfg0.N) : S128x128.Idx → EReal := iblk m c 2 t
abbrev bBlk (c : Dev nD) (t : Fin cfg0.N) : S128.Idx → EReal := iblk m c 3 t

/-- The result array after the run: the epilogue of the four arrays as the region finds them. -/
def result (c : Dev nD) : S50000x128.Idx → EReal :=
  SGConv.dense (aggArr m c) (xArr m c) (wtArr m c) (bArr m c)

/-- The printed index maps, decided over the ten points: the two row-blocked inputs move with the output, down the
    rows only; the weights and the bias stay at their one block. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (1 : Fin 2) = 0 ∧ win0_4.index t (0 : Fin 2) ≤ 9 :=
  (by decide +kernel : ∀ t : Fin grid0.N, _)

/-- Every block of rows is some point's. -/
theorem idx_onto : ∀ q0 : Fin 10, ∃ t : Fin cfg0.N, win0_4.index t = ![q0.val, 0] :=
  (by decide +kernel : ∀ q0 : Fin 10, ∃ t : Fin grid0.N, win0_4.index t = ![q0.val, 0])

/-- WHAT POINT `t` WRITES BACK is block `t` of `result`. -/
theorem flushed_eq (c : Dev nD) (t : Fin cfg0.N) :
    (dats m 0 c).flushed 4 t = ((cfg0.win 4).blk t).view.read (Elt Ideal) (result m c) := by
  rw [flushed4]
  unfold out0_4
  rw [View.canon_unit_zero hz2]
  simp only [View.ld_unit_zero (S := S5000x128) hz2, View.ld_unit_zero (S := S128x128) hz2, View.ld_unit_zero (S := S128) hz1]
  obtain ⟨e0, e1, e2, e3, e4, e5, e6, e7, e8⟩ := idx_facts t
  have key : ∀ j : S5000x128.Idx, k0_pay1 (F := Ideal) (aggBlk m c t) (wtBlk m c t) (bBlk m c t) (xBlk m c t) j
      = result m c (((cfg0.win 4).blk t).view.emb j) := by
    intro j
    obtain ⟨p, q, rfl⟩ : ∃ (p : Fin 5000) (q : Fin 128), j = ix2 p q := ⟨j 0, j 1, eq_ix2 j⟩
    refine (pay_entry (aggBlk m c t) (wtBlk m c t) (bBlk m c t) (xBlk m c t) p q).trans ?_
    have hp : p.val < 5000 := p.isLt
    have hrow : win0_4.index t (0 : Fin 2) * 5000 + p.val < 50000 := by omega
    have hemb : ((cfg0.win 4).blk t).view.emb (ix2 p q)
        = ix2 (⟨win0_4.index t (0 : Fin 2) * 5000 + p.val, hrow⟩ : Fin 50000) q := by
      funext a; apply Fin.ext
      match a with
      | ⟨0, _⟩ => show win0_4.index t (0 : Fin 2) * 5000 + 1 * p.val = win0_4.index t (0 : Fin 2) * 5000 + p.val; omega
      | ⟨1, _⟩ => show win0_4.index t (1 : Fin 2) * 128 + 1 * q.val = q.val; omega
    rw [hemb]
    show _ = SGConv.entry (aggArr m c) (xArr m c) (wtArr m c) (bArr m c) (⟨win0_4.index t (0 : Fin 2) * 5000 + p.val, hrow⟩ : Fin 50000) q
    refine SGConv.entry_congr (aggBlk m c t) (xBlk m c t) (aggArr m c) (xArr m c) (wtBlk m c t) (wtArr m c) (bBlk m c t) (bArr m c)
      p (⟨win0_4.index t (0 : Fin 2) * 5000 + p.val, hrow⟩ : Fin 50000) q ?_ ?_ ?_ ?_
    · intro k
      have h : ∀ A : S50000x128.Idx → EReal, ((cfg0.win 0).blk t).view.read (Elt Ideal) A (ix2 p k)
          = A (ix2 (⟨win0_4.index t (0 : Fin 2) * 5000 + p.val, hrow⟩ : Fin 50000) k) := by
        intro A
        rw [View.read_apply]
        refine congrArg A (funext fun a => Fin.ext ?_)
        match a with
        | ⟨0, _⟩ => show win0_0.index t (0 : Fin 2) * 5000 + 1 * p.val = win0_4.index t (0 : Fin 2) * 5000 + p.val; omega
        | ⟨1, _⟩ => show win0_0.index t (1 : Fin 2) * 128 + 1 * k.val = k.val; omega
      exact h (aggArr m c)
    · have h : ∀ A : S50000x128.Idx → EReal, ((cfg0.win 1).blk t).view.read (Elt Ideal) A (ix2 p q)
          = A (ix2 (⟨win0_4.index t (0 : Fin 2) * 5000 + p.val, hrow⟩ : Fin 50000) q) := by
        intro A
        rw [View.read_apply]
        refine congrArg A (funext fun a => Fin.ext ?_)
        match a with
        | ⟨0, _⟩ => show win0_1.index t (0 : Fin 2) * 5000 + 1 * p.val = win0_4.index t (0 : Fin 2) * 5000 + p.val; omega
        | ⟨1, _⟩ => show win0_1.index t (1 : Fin 2) * 128 + 1 * q.val = q.val; omega
      exact h (xArr m c)
    · intro k
      have h : ∀ A : S128x128.Idx → EReal, ((cfg0.win 2).blk t).view.read (Elt Ideal) A (ix2 k q) = A (ix2 k q) := by
        intro A
        rw [View.read_apply]
        refine congrArg A (funext fun a => Fin.ext ?_)
        match a with
        | ⟨0, _⟩ => show win0_2.index t (0 : Fin 2) * 128 + 1 * k.val = k.val; omega
        | ⟨1, _⟩ => show win0_2.index t (1 : Fin 2) * 128 + 1 * q.val = q.val; omega
      exact h (wtArr m c)
    · have h : ∀ A : S128.Idx → EReal, ((cfg0.win 3).blk t).view.read (Elt Ideal) A (ix1 q) = A (ix1 q) := by
        intro A
        rw [View.read_apply]
        refine congrArg A (funext fun a => Fin.ext ?_)
        match a with
        | ⟨0, _⟩ => show win0_3.index t (0 : Fin 1) * 128 + 1 * q.val = q.val; omega
      exact h (bArr m c)
  funext j
  exact key j

/-- An index of the array is in point `t`'s block iff each coordinate is in the block's range on its axis. -/
theorem mem_blk (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v45).slice (win0_4.rect t)).set ↔ _
  rw [View.set_slice_whole, Rect.mem_set_unit]
  exact Iff.rfl

/-- The ten blocks cover the array: row `r` is in the block of point `r / 5000`. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ := idx_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- THE ARRAY after the run is `result`. -/
theorem final (c : Dev nD) : (dats m 0 c).arrAt 4 cfg0.N = result m c :=
  (dats m 0 c).arrAt_eq_of_cover 4 (result m c) (fun t _ => flushed_eq m c t) cover

/-- The run, read: the result array at the epilogue of the arrays the region finds, the arguments unchanged. -/
theorem run : θ_run defs (onTc (τ := τ) (main (F := Ideal))) ⟨m, fun _ => 0, ρ⟩ fun r => ∀ c : Dev nD,
      r.2.mem ((c : Thread nD τ).loc main_v45) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.KernelIdeal.Dense

end
-- ==== Proof.RefValue.lean ====
/-
  The reference's result, as the same function of four arrays.

  After it has aggregated the neighbour features (`val_main_v43`: a scatter-add of the degree-normalised gathered rows)
  and transposed the weight matrix (`val_main_v44`), the reference forms

      x + max( agg · wt + b, 0 )

  with one whole matrix product, the bias broadcast over the rows, a maximum with the broadcast zero and a final
  addition.  Read at an index (p, q): the product is the sum over the contracted axis of `agg(p, k) · wt(k, q)`, the two
  broadcasts of the bias read `b(q)`, the broadcast zero reads the zero word, and the rest is pointwise.  That is
  `SGConv.dense` of those arrays; the aggregate and the transposed weights stay unopened.
-/
import proofs.«121625_j31138512896566_1_alg».proof.Proof.RefRead
import proofs.«121625_j31138512896566_1_alg».proof.Proof.Epilogue
import Idealize.ShloMosaic.Lib.ValueIdx

noncomputable section

open Idealize.ShloMosaic Idealize.ShloMosaic.ValueIdx

namespace Cert.ReferenceIdeal.Dense

open Cert.ReferenceIdeal Cert.ReferenceIdeal.Gen Cert.ReferenceIdeal.ReadP

/-- The reference's last stage is the epilogue of its aggregate, the node features, its transposed weights and the bias. -/
theorem result_eq (x0 : (⟨S50000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) :
    val_main_v50 (F := Ideal) x0 x1 x2 x3
      = SGConv.dense (n := 50000) (val_main_v43 (F := Ideal) x0 x1) x0 (val_main_v44 (F := Ideal) x2) x3 := by
  funext i
  obtain ⟨p, q, rfl⟩ : ∃ (p : Fin 50000) (q : Fin 128), i = ix2 p q := ⟨i 0, i 1, eq_ix2 i⟩
  have hl : ∀ k : Fin 128, lidx_main_v45 (ix2 p q) k = ix2 p k := fun k =>
    funext fun a => Fin.ext (by match a with | ⟨0, _⟩ => rfl | ⟨1, _⟩ => rfl)
  have hr : ∀ k : Fin 128, ridx_main_v45 (ix2 p q) k = ix2 k q := fun k =>
    funext fun a => Fin.ext (by match a with | ⟨0, _⟩ => rfl | ⟨1, _⟩ => rfl)
  have hb : idx_main_v46 (idx_main_v47 (ix2 p q)) = ix1 q :=
    funext fun a => Fin.ext (by match a with | ⟨0, _⟩ => rfl)
  rw [val_main_v50_apply, val_main_v49_apply, val_main_v48_apply, val_main_v45_apply, val_main_v47_apply, val_main_v46_apply,
    val_main_call1_v0_apply, val_main_call1_cst_apply]
  simp only [hl, hr, hb]
  rfl

end Cert.ReferenceIdeal.Dense

end
-- ==== Proof.SameAggregate.lean ====
/-
  The two programs aggregate alike.

  Before its one kernel region the kernel's host program computes, from the node features and the edge list, exactly the
  operations the reference computes before its matrix product: the self-loops appended to the edge list, the in-degrees
  by a scatter-add of ones, their inverse square roots where positive, the edge weights as products of two gathered
  entries, the gathered source rows scaled by them, and the scatter-add of those rows at the destinations; then the
  transpose of the weight matrix.  The array the region finds at the aggregate's buffer is therefore, operation for
  operation, the reference's aggregate stage of the same arguments, and the array at the transposed weights' buffer
  its transpose stage: the two composed terms are one, at any float family.
-/
import proofs.«121625_j31138512896566_1_alg».proof.Proof.Gen.KernelIdeal.Frame
import proofs.«121625_j31138512896566_1_alg».proof.Proof.RefRead
import Idealize.ShloMosaic.Lib.StableHlo.Run

noncomputable section

open Idealize.ShloMosaic Idealize.ShloMosaic.TcCoe Idealize.SL.Sem Idealize.ShloMosaic.StableHlo

namespace Cert.Proof.SameAggregate

open Cert.KernelIdeal Cert.KernelIdeal.Gen

variable {F : FTy → Type} [FloatOps F]
variable (m : (ℓ : Loc nD τ sig) → Buf (Elt F) ℓ)

set_option maxRecDepth 16384 in
set_option maxHeartbeats 4000000 in
/-- The aggregate the region finds is the reference's aggregate stage of the launch's node features and edge list. -/
theorem agg_eq (c : Dev nD) :
    V m c main_v43 = Cert.ReferenceIdeal.ReadP.val_main_v43 (F := F)
      (m ((c : Thread nD τ).loc main_arg0)) (m ((c : Thread nD τ).loc main_arg1)) := by
  dsimp only [V]
  simp only [hostOps0, hostOps0_1, hostOps0_2, List.flatten_cons, List.flatten_nil, List.append_nil, List.cons_append,
    List.nil_append]
  after_results_simp
  (try simp only [TRef.ofBuf, TRef.toBuf, cast_eq])
  rfl

set_option maxRecDepth 16384 in
set_option maxHeartbeats 4000000 in
/-- The transposed weights the region finds are the reference's transpose stage of the launch's weight matrix. -/
theorem wt_eq (c : Dev nD) :
    V m c main_v44 = Cert.ReferenceIdeal.ReadP.val_main_v44 (F := F) (m ((c : Thread nD τ).loc main_arg2)) := by
  dsimp only [V]
  simp only [hostOps0, hostOps0_1, hostOps0_2, List.flatten_cons, List.flatten_nil, List.append_nil, List.cons_append,
    List.nil_append]
  after_results_simp
  (try simp only [TRef.ofBuf, TRef.toBuf, cast_eq])
  rfl

end Cert.Proof.SameAggregate

end
-- ==== Proof.lean ====
/-
  The certificate of a simplified graph convolution's dense epilogue, run as a blocked kernel, against its plain reference.

  Both programs first aggregate the neighbour features on the host with the same operations (self-loops appended, in-degrees,
  inverse square roots, gathered and scaled source rows scatter-added at the destinations) and transpose the weight matrix;
  then the reference forms `x + max(agg · wt + b, 0)` with one whole matrix product, while the kernel forms it over ten
  blocks of 5000 rows, each block one matrix product into a zero accumulator with its operands narrowed to bfloat16 first.
  Over the extended reals the narrowing is the identity and both products are the same sum over the contracted axis, so
  entry by entry both results are `x(p, q) + max(Σ_k agg(p, k) · wt(k, q) + b(q), 0)` (`SGConv.dense`) of the same four
  arrays: the kernel's by its blocks tiling the rows (`Cert.KernelIdeal.Dense.run`), the reference's by reading its last
  five operations at an index (`Cert.ReferenceIdeal.Dense.result_eq`), the arrays by the two host programs being one
  composed term (`Cert.Proof.SameAggregate`).  No law of arithmetic is needed beyond that, so the precondition is never opened.
  The three frames are the generated ones (the reference's is its run with the result dropped); the idealization rewrote
  nothing, so `preserves` is trivial.
-/
import proofs.«121625_j31138512896566_1_alg».proof.Defs
import proofs.«121625_j31138512896566_1_alg».proof.Proof.Gen.Kernel
import proofs.«121625_j31138512896566_1_alg».proof.Proof.Gen.Kernel.Skeleton
import proofs.«121625_j31138512896566_1_alg».proof.Proof.Gen.Kernel.Launch
import proofs.«121625_j31138512896566_1_alg».proof.Proof.Gen.Kernel.Points
import proofs.«121625_j31138512896566_1_alg».proof.Proof.Gen.Kernel.Frame
import proofs.«121625_j31138512896566_1_alg».proof.Proof.Gen.KernelIdeal
import proofs.«121625_j31138512896566_1_alg».proof.Proof.Gen.KernelIdeal.Skeleton
import proofs.«121625_j31138512896566_1_alg».proof.Proof.Gen.KernelIdeal.Launch
import proofs.«121625_j31138512896566_1_alg».proof.Proof.Gen.KernelIdeal.Points
import proofs.«121625_j31138512896566_1_alg».proof.Proof.Gen.KernelIdeal.Frame
import proofs.«121625_j31138512896566_1_alg».proof.Proof.Gen.ReferenceIdeal
import proofs.«121625_j31138512896566_1_alg».proof.Proof.Gen.Pre_finite_inputs
import proofs.«121625_j31138512896566_1_alg».proof.Proof.Gen.KernelIdeal.Value
import proofs.«121625_j31138512896566_1_alg».proof.Proof.RefRun
import proofs.«121625_j31138512896566_1_alg».proof.Proof.RefRead
import proofs.«121625_j31138512896566_1_alg».proof.Proof.Epilogue
import proofs.«121625_j31138512896566_1_alg».proof.Proof.KernelValue
import proofs.«121625_j31138512896566_1_alg».proof.Proof.RefValue
import proofs.«121625_j31138512896566_1_alg».proof.Proof.SameAggregate
import Idealize.ShloMosaic.Adequacy
import Idealize.ShloMosaic.Init

noncomputable section

namespace Cert.Proof

open Idealize.ShloMosaic Idealize.ShloMosaic.TcCoe Idealize.SL.Sem Cert.KernelIdeal

/-- The kernel's result is the epilogue of the reference's own aggregate and transposed weights of the launch's arrays:
    the arrays the region finds are those stages, and the node features and the bias are untouched before the region. -/
theorem result_is_ref (m : (ℓ : Loc nD τ sig) → Buf (Elt Ideal) ℓ) (c : Dev nD) :
    Cert.KernelIdeal.Dense.result m c
      = SGConv.dense (n := 50000)
          (Cert.ReferenceIdeal.ReadP.val_main_v43 (F := Ideal) (m ((c : Thread nD τ).loc main_arg0)) (m ((c : Thread nD τ).loc main_arg1)))
          (m ((c : Thread nD τ).loc main_arg0))
          (Cert.ReferenceIdeal.ReadP.val_main_v44 (F := Ideal) (m ((c : Thread nD τ).loc main_arg2)))
          (m ((c : Thread nD τ).loc main_arg3)) := by
  unfold Cert.KernelIdeal.Dense.result
  simp only [Cert.KernelIdeal.Dense.aggArr, Cert.KernelIdeal.Dense.xArr, Cert.KernelIdeal.Dense.wtArr, Cert.KernelIdeal.Dense.bArr]
  rw [Cert.Proof.SameAggregate.agg_eq m c, Cert.Proof.SameAggregate.wt_eq m c, Cert.KernelIdeal.Gen.V_main_arg0 m c,
    Cert.KernelIdeal.Gen.V_main_arg3 m c]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunP.run (F := Ideal) m ρ)

/-- From memories that agree on the arguments both programs end with the result array at the epilogue of the same
    four arrays. -/
theorem algebraic : Cert.algebraic_KernelIdeal_ReferenceIdeal := by
  intro m ρ m' ρ' _ hagree
  refine ⟨fun c => Cert.KernelIdeal.Dense.result m c, Cert.KernelIdeal.Dense.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v50_eq, Cert.ReferenceIdeal.Dense.result_eq,
    (hagree c).1, (hagree c).2.1, (hagree c).2.2.1, (hagree c).2.2.2]
  exact (result_is_ref m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
